-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S600000 : Shape := ⟨1, ![600000]⟩
abbrev S200000x1 : Shape := ⟨2, ![200000, 1]⟩
abbrev S256x256 : Shape := ⟨2, ![256, 256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S200000x1 : S_.BroadcastsInDim S200000x1 (![] : Fin 0 → Fin S200000x1.rank)
  reducesTo_S200000x1_S_d0_1 : S200000x1.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S200000x256 .f32) (main_arg1 : IVec S600000 32) (main_arg2 : IVec S600000 32) (main_arg3 : FVec F S200000x1 .f32) (main_arg4 : FVec F S256x256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x1 .f32 := Host.absf main_arg3
  let main_cst_0 : FVec F S_ .f32 := constant S_ .f32 0x7F800000#32
  let main_v5 : FVec F S200000x1 .f32 := broadcastInDim S200000x1 ![] bcast_S_S200000x1 main_cst_0
  let main_v6 : IVec S200000x1 1 := cmpf .olt main_v4 main_v5
  let main_c_1 : IVec S_ 1 := constantI S_ 1 1#1
  let main_v7 : IVec S_ 1 := (fun x v => Host.reduce IntOp.andi x v reducesTo_S200000x1_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S200000x256 : Shape := ⟨2, ![200000, 256]⟩
abbrev S600000 : Shape := ⟨1, ![600000]⟩
abbrev S200000x1 : Shape := ⟨2, ![200000, 1]⟩
abbrev S256x256 : Shape := ⟨2, ![256, 256]⟩
abbrev S_ : Shape := ⟨0, ![]⟩
abbrev S600000x1 : Shape := ⟨2, ![600000, 1]⟩
abbrev S600000x256 : Shape := ⟨2, ![600000, 256]⟩
abbrev S5000x256 : Shape := ⟨2, ![5000, 256]⟩
abbrev S5000x1 : Shape := ⟨2, ![5000, 1]⟩

abbrev nBuf : Space → Nat
  | .hbm => 25
  | .vmem => 7
  | .smem => 0
  | _ => 0

abbrev bufTy : (tb : Table) → Fin (tcTables nBuf tb) → BufTy
  | .hbm, ⟨0, _⟩ => ⟨S200000x256, .f32⟩
  | .hbm, ⟨1, _⟩ => ⟨S600000, .i32⟩
  | .hbm, ⟨2, _⟩ => ⟨S600000, .i32⟩
  | .hbm, ⟨3, _⟩ => ⟨S200000x1, .f32⟩
  | .hbm, ⟨4, _⟩ => ⟨S256x256, .f32⟩
  | .hbm, ⟨5, _⟩ => ⟨S_, .i32⟩
  | .hbm, ⟨6, _⟩ => ⟨S600000, .i32⟩
  | .hbm, ⟨7, _⟩ => ⟨S600000, .i1⟩
  | .hbm, ⟨8, _⟩ => ⟨S_, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000x1, .i32⟩
  | .hbm, ⟨13, _⟩ => ⟨S600000x256, .f32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S200000x256, .f32⟩
  | .hbm, ⟨23, _⟩ => ⟨S256x256, .bf16⟩
  | .hbm, ⟨24, _⟩ => ⟨S200000x256, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x256, .bf16⟩
  | .local _ .vmem, ⟨5, _⟩ => ⟨S5000x256, .f32⟩
  | .local _ .vmem, ⟨6, _⟩ => ⟨S5000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  broadcasts_S5000x1_S5000x256 : S5000x1.Broadcasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  gather_S200000x256_S600000x1_S600000x256_1_0_n_n_0_1_1256_wf : GatherDims.WF S200000x256 S600000x1 S600000x256 [1] [0] [] [0] [] 1 ![1, 256]
  scatter_S200000x256_S600000x1_S600000x256_1_0_0_1_wf : ScatterDims.WF S200000x256 S600000x1 S600000x256 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S200000x256.size a
  hwx0_0 : ∀ i : grid0.Coords, EltTy.bits .f32 = 32 ∨ (Rect.block (s := S200000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S200000x1.size a
  hwx0_1 : ∀ i : grid0.Coords, EltTy.bits .f32 = 32 ∨ (Rect.block (s := S200000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S200000x256.size a
  hwx0_3 : ∀ i : grid0.Coords, EltTy.bits .f32 = 32 ∨ (Rect.block (s := S200000x256) S5000x256.size (cc0_transform_3 i) (hinb0_3 i)).WholeWords (EltTy.packing .f32)

variable [Facts₀]

def gather_S200000x256_S600000x1_S600000x256_1_0_n_n_0_1_1256 : GatherDims S200000x256 S600000x1 S600000x256 where
  offsetDims := [1]
  collapsedSliceDims := [0]
  operandBatchingDims := []
  startIndicesBatchingDims := []
  startIndexMap := [0]
  indexVectorDim := 1
  sliceSizes := ![1, 256]
  wf := gather_S200000x256_S600000x1_S600000x256_1_0_n_n_0_1_1256_wf
def scatter_S200000x256_S600000x1_S600000x256_1_0_0_1 : ScatterDims S200000x256 S600000x1 S600000x256 where
  updateWindowDims := [1]
  insertedWindowDims := [0]
  scatterDimsToOperandDims := [0]
  indexVectorDim := 1
  wf := scatter_S200000x256_S600000x1_S600000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_v13) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200000x256 : Shape := ⟨2, ![200000, 256]⟩
abbrev S600000 : Shape := ⟨1, ![600000]⟩
abbrev S200000x1 : Shape := ⟨2, ![200000, 1]⟩
abbrev S256x256 : Shape := ⟨2, ![256, 256]⟩
abbrev S_ : Shape := ⟨0, ![]⟩
abbrev S600000x1 : Shape := ⟨2, ![600000, 1]⟩
abbrev S600000x256 : Shape := ⟨2, ![600000, 256]⟩

abbrev nBuf : Space → Nat
  | .hbm => 26
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S600000, .i32⟩
  | .hbm, ⟨2, _⟩ => ⟨S600000, .i32⟩
  | .hbm, ⟨3, _⟩ => ⟨S200000x1, .f32⟩
  | .hbm, ⟨4, _⟩ => ⟨S256x256, .f32⟩
  | .hbm, ⟨5, _⟩ => ⟨S_, .i32⟩
  | .hbm, ⟨6, _⟩ => ⟨S600000, .i32⟩
  | .hbm, ⟨7, _⟩ => ⟨S600000, .i1⟩
  | .hbm, ⟨8, _⟩ => ⟨S_, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000x1, .i32⟩
  | .hbm, ⟨13, _⟩ => ⟨S600000x256, .f32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S200000x256, .f32⟩
  | .hbm, ⟨23, _⟩ => ⟨S200000x256, .f32⟩
  | .hbm, ⟨24, _⟩ => ⟨S200000x256, .f32⟩
  | .hbm, ⟨25, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S200000x1_S200000x256_0_1 : S200000x1.BroadcastsInDim S200000x256 (![0, 1] : Fin 2 → Fin S200000x256.rank)
  gather_S200000x256_S600000x1_S600000x256_1_0_n_n_0_1_1256_wf : GatherDims.WF S200000x256 S600000x1 S600000x256 [1] [0] [] [0] [] 1 ![1, 256]
  scatter_S200000x256_S600000x1_S600000x256_1_0_0_1_wf : ScatterDims.WF S200000x256 S600000x1 S600000x256 [1] [0] [0] 1
  dot_S200000x256_S256x256_S200000x256_1_0_0_1_n_n_wf : DotDims.WF S200000x256 S256x256 S200000x256 [1] [0] [0] [1] [] []

variable [Facts₀]

def gather_S200000x256_S600000x1_S600000x256_1_0_n_n_0_1_1256 : GatherDims S200000x256 S600000x1 S600000x256 where
  offsetDims := [1]
  collapsedSliceDims := [0]
  operandBatchingDims := []
  startIndicesBatchingDims := []
  startIndexMap := [0]
  indexVectorDim := 1
  sliceSizes := ![1, 256]
  wf := gather_S200000x256_S600000x1_S600000x256_1_0_n_n_0_1_1256_wf
def scatter_S200000x256_S600000x1_S600000x256_1_0_0_1 : ScatterDims S200000x256 S600000x1 S600000x256 where
  updateWindowDims := [1]
  insertedWindowDims := [0]
  scatterDimsToOperandDims := [0]
  indexVectorDim := 1
  wf := scatter_S200000x256_S600000x1_S600000x256_1_0_0_1_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf

class Facts : Prop extends Facts₀ where

variable [Facts]
-- ==== Proof.ScaledProduct.lean ====
/-
  The function both programs compute, entry by entry.

  Given an array of rows `a` (200000 × 256), a column of scales `s` (200000 × 1) and a square matrix `w` (256 × 256),
  entry `(n, j)` of the result is

      ∑ k, (a (n, k) · s (n, 0)) · w (k, j)

  on the extended reals: row `n` of `a` scaled by the `n`-th scale, then multiplied into column `j` of `w`.
  The reference scales from the left, `s (n, 0) · a (n, k)`; multiplication of extended reals commutes, also at the
  infinities, so the two readings agree term by term and no finiteness is used.
-/
import Idealize.ShloMosaic.PureOps.Ideal
import Idealize.ShloMosaic.Lib.ValueIdx

noncomputable section

open scoped BigOperators

namespace Cert.ScaledProduct

open Idealize.ShloMosaic Idealize.ShloMosaic.ValueIdx

/-- Entry `(n, j)`: the scaled row `n` against column `j`. -/
def scaledProduct (a : (⟨2, ![200000, 256]⟩ : Shape).Idx → EReal) (s : (⟨2, ![200000, 1]⟩ : Shape).Idx → EReal)
    (w : (⟨2, ![256, 256]⟩ : Shape).Idx → EReal) : (⟨2, ![200000, 256]⟩ : Shape).Idx → EReal :=
  fun i => ∑ k : Fin 256, (a (ix2 (i 0) k) * s (ix2 (i 0) (0 : Fin 1))) * w (ix2 k (i 1))

/-- The same entry at explicit coordinates. -/
theorem scaledProduct_apply (a : (⟨2, ![200000, 256]⟩ : Shape).Idx → EReal) (s : (⟨2, ![200000, 1]⟩ : Shape).Idx → EReal)
    (w : (⟨2, ![256, 256]⟩ : Shape).Idx → EReal) (n : Fin 200000) (j : Fin 256) :
    scaledProduct a s w (ix2 n j) = ∑ k : Fin 256, (a (ix2 n k) * s (ix2 n (0 : Fin 1))) * w (ix2 k j) := rfl

/-- Scaling from the left gives the same entry: each term's first product commutes. -/
theorem scaledProduct_left (a : (⟨2, ![200000, 256]⟩ : Shape).Idx → EReal) (s : (⟨2, ![200000, 1]⟩ : Shape).Idx → EReal)
    (w : (⟨2, ![256, 256]⟩ : Shape).Idx → EReal) (n : Fin 200000) (j : Fin 256) :
    ∑ k : Fin 256, (s (ix2 n (0 : Fin 1)) * a (ix2 n k)) * w (ix2 k j) = scaledProduct a s w (ix2 n j) := by
  rw [scaledProduct_apply]
  exact Finset.sum_congr rfl fun k _ => by rw [mul_comm (s _) (a _)]

end Cert.ScaledProduct

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.Tile.lean ====
/-
  One tile of the kernel, entry by entry.

  The body loads a 5000 × 256 tile of rows `x`, the matching 5000 × 1 column of scales `s` and the whole 256 × 256
  matrix `w`, and stores the matrix product of the scaled tile with `w`, accumulated into zero. On the extended reals
  the change of format before the product is the identity, the column is repeated along the 256 lanes, and the
  product into zero is the plain finite sum over the contracted axis: entry `(p, q)` of the stored tile is
  `∑ k, (x (p, k) · s (p, 0)) · w (k, q)`.
-/
import proofs.«173698_j13589276525053_1_alg».proof.Proof.Gen.KernelIdeal.Skeleton
import proofs.«173698_j13589276525053_1_alg».proof.Proof.LibPlainProduct
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The column of scales repeated along the lanes: entry `(p, k)` of the repeated column is its entry `(p, 0)`. -/
theorem column_repeated (s : FVec Ideal S5000x1 .f32) (p : Fin 5000) (k : Fin 256) :
    broadcastTo S5000x256 s broadcasts_S5000x1_S5000x256 (ix2 p k) = s (ix2 p (0 : Fin 1)) := by
  refine broadcastTo_apply s broadcasts_S5000x1_S5000x256 (ix2 p k) (ix2 p (0 : Fin 1)) fun a => ?_
  match a with
  | ⟨0, _⟩ => show p.val = if (5000 : Nat) = 1 then 0 else p.val; rw [if_neg (by decide)]
  | ⟨1, _⟩ => show 0 = if (1 : Nat) = 1 then 0 else k.val; rw [if_pos rfl]

/-- Entry `(p, q)` of the tile the body stores: the scaled row `p` of the loaded tile against column `q` of the matrix. -/
theorem stored_apply (x : FVec Ideal S5000x256 .f32) (s : FVec Ideal S5000x1 .f32) (w : FVec Ideal S256x256 .bf16)
    (p : Fin 5000) (q : Fin 256) :
    k0_pay1 (F := Ideal) x s w (ix2 p q) = ∑ k : Fin 256, (x (ix2 p k) * s (ix2 p (0 : Fin 1))) * w (ix2 k q) := by
  unfold k0_pay1
  show FloatOps.matmul (DotDims.plain 5000 256 256) none
      (truncf .bf16 (mulf (shapeCast S5000x256 x shapeCasts_S5000x256_S5000x256)
        (broadcastTo S5000x256 s broadcasts_S5000x1_S5000x256)) bitsLt_bf16_f32)
      (shapeCast S256x256 w shapeCasts_S256x256_S256x256) (constant ⟨2, ![5000, 256]⟩ .f32 0x00000000#32) (ix2 p q) = _
  rw [Cert.LibPlainProduct.matmul_zero_plain_apply]
  refine Finset.sum_congr rfl fun k _ => ?_
  rw [truncf_apply, mulf_apply, shapeCast_self, shapeCast_self, column_repeated]

end Cert.KernelIdeal.Tile

end
-- ==== Proof.Found.lean ====
/-
  What the kernel's one region finds in the arrays it stages.

  Before the region the host wraps negative indices (an index below zero has 200000 added), gathers the rows of the
  first argument at the wrapped sources, and adds the gathered rows into the first argument at the wrapped targets:
  the aggregated rows, a function of the first three arguments. It also changes the matrix's format. The region
  stages the aggregated rows, the column of scales (the fourth argument, untouched) and the re-formatted matrix.
  The gather and the scatter-add are never opened: the reference computes the same term.
-/
import proofs.«173698_j13589276525053_1_alg».proof.Proof.Gen.KernelIdeal.Frame
import Idealize.ShloMosaic.Lib.StableHlo.Run

noncomputable section

namespace Cert.KernelIdeal.Found

open Cert.KernelIdeal Cert.KernelIdeal.Gen Idealize.ShloMosaic Idealize.ShloMosaic.TcCoe Idealize.SL.Sem Idealize.ShloMosaic.StableHlo

variable {F : FTy → Type} [FloatOps F]

/-- An index vector with its negative entries wrapped (200000 added), as a 600000 × 1 column. -/
def wrapped (e : (⟨S600000, .i32⟩ : BufTy).Contents (Elt F)) : (⟨S600000x1, .i32⟩ : BufTy).Contents (Elt F) :=
  broadcastInDim S600000x1 ![0] bcast_S600000_S600000x1_0
    (select (cmpi .slt e (broadcastInDim S600000 ![] bcast_S_S600000 (constantI S_ 32 0#32)))
      (addi e (broadcastInDim S600000 ![] bcast_S_S600000 (constantI S_ 32 200000#32))) e)

/-- The aggregated rows: the rows gathered at the sources, added into the first argument at the targets. -/
def aggregated (x : (⟨S200000x256, .f32⟩ : BufTy).Contents (Elt F)) (src tgt : (⟨S600000, .i32⟩ : BufTy).Contents (Elt F)) :
    (⟨S200000x256, .f32⟩ : BufTy).Contents (Elt F) :=
  Host.scatterAdd scatter_S200000x256_S600000x1_S600000x256_1_0_0_1 x (wrapped tgt)
    (Host.gather gather_S200000x256_S600000x1_S600000x256_1_0_n_n_0_1_1256 x (wrapped src))

variable (m : (ℓ : Loc nD τ sig) → Buf (Elt F) ℓ)

set_option maxHeartbeats 2000000 in
/-- The region finds the aggregated rows of the first three arguments in the array its first window stages. -/
theorem rows_found (c : Dev nD) :
    (V m c main_v13 : (⟨S200000x256, .f32⟩ : BufTy).Contents (Elt F))
      = aggregated (m ((c.tc : Thread nD τ).loc main_arg0)) (m ((c.tc : Thread nD τ).loc main_arg1)) (m ((c.tc : Thread nD τ).loc main_arg2)) := by
  dsimp only [V, hostOps0]
  after_results
  rfl

/-- And the fifth argument, its format changed, in the array its third window stages. -/
theorem matrix_found (c : Dev nD) :
    (V m c main_v14 : (⟨S256x256, .bf16⟩ : BufTy).Contents (Elt F))
      = truncf .bf16 (m ((c.tc : Thread nD τ).loc main_arg4)) bitsLt_bf16_f32 := by
  dsimp only [V, hostOps0]
  after_results

end Cert.KernelIdeal.Found

end
-- ==== Proof.Blocks.lean ====
/-
  From the kernel's tiles to its whole result array.

  The grid has 40 points. Point `t` stages rows `5000 t … 5000 t + 4999` of the aggregated rows and of the column of
  scales, the whole matrix, and writes back rows `5000 t … 5000 t + 4999` of the result. Entry `(p, q)` of the tile it
  writes is the scaled row `p` of its tile of rows against column `q` of the matrix, that is, entry
  `(5000 t + p, q)` of the scaled product of the three staged arrays. The 40 row blocks tile the 200000 rows
  (row `n` lies in block `n / 5000`), so after the run the result array is that scaled product, whole.
-/
import proofs.«173698_j13589276525053_1_alg».proof.Proof.Gen.KernelIdeal.Value
import proofs.«173698_j13589276525053_1_alg».proof.Proof.ScaledProduct
import proofs.«173698_j13589276525053_1_alg».proof.Proof.Tile
import proofs.«173698_j13589276525053_1_alg».proof.Proof.Found
import Idealize.ShloMosaic.Lib.Pipeline.Value
import Idealize.ShloMosaic.Lib.ValueIdx

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.ScaledProduct
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The block each window is on at point `t`: block row `t` of the rows, of the scales and of the result; the
    matrix's one block. Decided over the 40 points. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem points_lt (t : Fin cfg0.N) : t.val < 40 :=
  lt_of_lt_of_eq t.isLt (show cfg0.N = 40 from N_0)

/-- The three staged arrays as the region finds them, at their literal types. -/
abbrev rowsArr (c : Dev nD) : (⟨2, ![200000, 256]⟩ : Shape).Idx → EReal := V m c main_v13
abbrev scalesArr (c : Dev nD) : (⟨2, ![200000, 1]⟩ : Shape).Idx → EReal := V m c main_arg3
abbrev matrixArr (c : Dev nD) : (⟨2, ![256, 256]⟩ : Shape).Idx → EReal := V m c main_v14

/-- Entry `(p, k)` of point `t`'s tile of rows is entry `(5000 t + p, k)` of the rows. -/
theorem rows_tile (c : Dev nD) (t : Fin cfg0.N) (p : Fin 5000) (k : Fin 256) (n : Fin 200000)
    (hn : n.val = t.val * 5000 + p.val) :
    (iblk m c 0 t : (⟨2, ![5000, 256]⟩ : Shape).Idx → EReal) (ix2 p k) = rowsArr m c (ix2 n k) := by
  obtain ⟨e0, e1, -⟩ := block_indices t
  unfold iblk
  rw [View.read_apply]
  show V m c main_v13 _ = V m c main_v13 _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 256 + 1 * k.val = k.val; rw [e1]; omega

/-- Entry `(p, 0)` of point `t`'s tile of scales is entry `(5000 t + p, 0)` of the scales. -/
theorem scales_tile (c : Dev nD) (t : Fin cfg0.N) (p : Fin 5000) (n : Fin 200000)
    (hn : n.val = t.val * 5000 + p.val) :
    (iblk m c 1 t : (⟨2, ![5000, 1]⟩ : Shape).Idx → EReal) (ix2 p (0 : Fin 1)) = scalesArr m c (ix2 n (0 : Fin 1)) := by
  obtain ⟨-, -, e2, e3, -⟩ := block_indices t
  unfold iblk
  rw [View.read_apply]
  show V m c main_arg3 _ = V m c main_arg3 _
  congr 1
  funext a
  apply Fin.ext
  match a with
  | ⟨0, _⟩ => show win0_1.index t (0 : Fin 2) * 5000 + 1 * p.val = n.val; rw [e2, hn]; omega
  | ⟨1, _⟩ => show win0_1.index t (1 : Fin 2) * 1 + 1 * 0 = 0; rw [e3]

/-- Every point's tile of the matrix is the matrix. -/
theorem matrix_tile (c : Dev nD) (t : Fin cfg0.N) (k q : Fin 256) :
    (iblk m c 2 t : (⟨2, ![256, 256]⟩ : Shape).Idx → EReal) (ix2 k q) = matrixArr m c (ix2 k q) := by
  obtain ⟨-, -, -, -, e4, e5, -⟩ := block_indices t
  unfold iblk
  rw [View.read_apply]
  show V m c main_v14 _ = V m c main_v14 _
  congr 1
  funext a
  apply Fin.ext
  match a with
  | ⟨0, _⟩ => show win0_2.index t (0 : Fin 2) * 256 + 1 * k.val = k.val; rw [e4]; omega
  | ⟨1, _⟩ => show win0_2.index t (1 : Fin 2) * 256 + 1 * q.val = q.val; rw [e5]; omega

/-- WHAT POINT `t` WRITES BACK is block row `t` of the scaled product of the staged arrays. -/
theorem flushed_eq (c : Dev nD) (t : Fin cfg0.N) :
    (dats m 0 c).flushed 3 t
      = ((cfg0.win 3).blk t).view.read (Elt Ideal) (scaledProduct (rowsArr m c) (scalesArr m c) (matrixArr m c)) := by
  rw [flushed3]
  unfold out0_3
  rw [View.canon_unit_zero offsets_zero]
  simp only [View.ld_unit_zero (S := S5000x256) offsets_zero, View.ld_unit_zero (S := S5000x1) offsets_zero,
    View.ld_unit_zero (S := S256x256) offsets_zero]
  have ht := points_lt t
  obtain ⟨-, -, -, -, -, -, e6, e7⟩ := block_indices t
  funext j
  obtain ⟨p, q, rfl⟩ : ∃ (p : Fin 5000) (q : Fin 256), j = ix2 p q := ⟨j 0, j 1, eq_ix2 j⟩
  have hp := p.isLt
  have hemb : ((cfg0.win 3).blk t).view.emb (ix2 p q) = ix2 (⟨t.val * 5000 + p.val, by omega⟩ : Fin 200000) q := by
    funext a
    apply Fin.ext
    match a with
    | ⟨0, _⟩ => show win0_3.index t (0 : Fin 2) * 5000 + 1 * p.val = t.val * 5000 + p.val; rw [e6]; omega
    | ⟨1, _⟩ => show win0_3.index t (1 : Fin 2) * 256 + 1 * q.val = q.val; rw [e7]; omega
  show k0_pay1 (iblk m c 0 t) (iblk m c 1 t) (iblk m c 2 t) (ix2 p q)
    = scaledProduct (rowsArr m c) (scalesArr m c) (matrixArr m c) (((cfg0.win 3).blk t).view.emb (ix2 p q))
  rw [hemb, scaledProduct_apply]
  refine (Tile.stored_apply _ _ _ p q).trans (Finset.sum_congr rfl fun k _ => ?_)
  exact congrArg₂ (· * ·) (congrArg₂ (· * ·) (rows_tile m c t p k _ rfl) (scales_tile m c t p _ rfl)) (matrix_tile m c t k q)

/-- An index of the result array is in point `t`'s block iff each coordinate is in the block's range on its axis. -/
theorem mem_block (t : Fin cfg0.N) (i : S200000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v15).slice (win0_3.rect t)).set ↔ _
  rw [View.set_slice_whole, Rect.mem_set_unit]
  exact Iff.rfl

/-- The 40 row blocks tile the result array: row `n` lies in the block of point `n / 5000`. -/
theorem covered (i : S200000x256.Idx) :
    ∃ t : Fin cfg0.N, (cfg0.win 3).flush t = true ∧ i ∈ ((cfg0.win 3).blk t).view.set := by
  have h0 : (i 0).val < 200000 := (i 0).isLt
  have h1 : (i 1).val < 256 := (i 1).isLt
  have hN : cfg0.N = 40 := N_0
  have ht : ∃ t : Fin cfg0.N, t.val = (i 0).val / 5000 := ⟨⟨(i 0).val / 5000, by rw [hN]; omega⟩, rfl⟩
  obtain ⟨t, htv⟩ := ht
  obtain ⟨-, -, -, -, -, -, e6, e7⟩ := block_indices t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    rw [e6, htv]; omega
  | ⟨1, _⟩ =>
    show win0_3.index t (1 : Fin 2) * 256 ≤ (i 1).val ∧ (i 1).val < win0_3.index t (1 : Fin 2) * 256 + 256
    rw [e7]; omega

/-- THE RESULT ARRAY after the run: the scaled product of the staged arrays. -/
theorem result_array (c : Dev nD) :
    (dats m 0 c).arrAt 3 cfg0.N = scaledProduct (rowsArr m c) (scalesArr m c) (matrixArr m c) :=
  (dats m 0 c).arrAt_eq_of_cover 3 (scaledProduct (rowsArr m c) (scalesArr m c) (matrixArr m c))
    (fun t _ => flushed_eq m c t) covered

/-- The staged arrays are functions of the arguments: the aggregated rows, the fourth argument, and the fifth
    argument (its change of format the identity on extended reals). -/
theorem staged_of_arguments (c : Dev nD) :
    scaledProduct (rowsArr m c) (scalesArr m c) (matrixArr m c)
      = scaledProduct (Found.aggregated (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)) := by
  show scaledProduct (V m c main_v13) (V m c main_arg3) (V m c main_v14) = _
  rw [Found.rows_found m c, Found.matrix_found m c, V_main_arg3 m c]
  rfl

/-- The run, read: the result array at the scaled product of the aggregated rows, the scales and the matrix; the
    arguments unchanged. -/
theorem run : θ_run defs (onTc (τ := τ) (main (F := Ideal))) ⟨m, fun _ => 0, ρ⟩ fun r => ∀ c : Dev nD,
      r.2.mem ((c : Thread nD τ).loc main_v15)
        = scaledProduct (Found.aggregated (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((result_array m c).trans (staged_of_arguments m c)), (h c).2⟩)
    (run_blocks m ρ)

end Cert.KernelIdeal.Blocks

end
-- ==== Proof.RefProduct.lean ====
/-
  The reference, entry by entry.

  The reference wraps the indices, gathers and scatter-adds exactly as the kernel's host prefix does (the same
  operations on the same arguments: the aggregated rows), repeats the column of scales along the 256 lanes, multiplies
  the aggregated rows by it from the left, and takes one matrix product with the fifth argument. On the extended reals
  that product's entry `(n, j)` is `∑ k, (s (n, 0) · a (n, k)) · w (k, j)`; the first product commutes, which is the
  scaled product the kernel's tiles assemble.
-/
import proofs.«173698_j13589276525053_1_alg».proof.Proof.Gen.ReferenceIdeal.Read
import proofs.«173698_j13589276525053_1_alg».proof.Proof.ScaledProduct
import proofs.«173698_j13589276525053_1_alg».proof.Proof.Found
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx
open Cert.ScaledProduct

/-- The reference's aggregated rows are the kernel's: the same wrap, gather and scatter-add of the same arguments. -/
theorem aggregated_eq (x0 : (⟨S200000x256, .f32⟩ : BufTy).Contents (Elt Ideal)) (x1 x2 : (⟨S600000, .i32⟩ : BufTy).Contents (Elt Ideal)) :
    val_main_v13 (F := Ideal) x0 x1 x2 = Cert.KernelIdeal.Found.aggregated (F := Ideal) x0 x1 x2 := rfl

/-- The reference's result is the scaled product of the aggregated rows, the scales and the matrix. -/
theorem result_eq (x0 : (⟨S200000x256, .f32⟩ : BufTy).Contents (Elt Ideal)) (x1 x2 : (⟨S600000, .i32⟩ : BufTy).Contents (Elt Ideal))
    (x3 : (⟨S200000x1, .f32⟩ : BufTy).Contents (Elt Ideal)) (x4 : (⟨S256x256, .f32⟩ : BufTy).Contents (Elt Ideal)) :
    val_main_v16 (F := Ideal) x0 x1 x2 x3 x4 = scaledProduct (Cert.KernelIdeal.Found.aggregated (F := Ideal) x0 x1 x2) x3 x4 := by
  funext i
  obtain ⟨n, j, rfl⟩ : ∃ (n : Fin 200000) (j : Fin 256), i = ix2 n j := ⟨i 0, i 1, eq_ix2 i⟩
  rw [val_main_v16_apply, ← scaledProduct_left]
  refine Finset.sum_congr rfl fun k _ => ?_
  have el : lidx_main_v16 (ix2 n j) k = ix2 n k :=
    funext fun a => Fin.ext (by match a with | ⟨0, _⟩ => rfl | ⟨1, _⟩ => rfl)
  have er : ridx_main_v16 (ix2 n j) k = ix2 k j :=
    funext fun a => Fin.ext (by match a with | ⟨0, _⟩ => rfl | ⟨1, _⟩ => rfl)
  have es : idx_main_v14 (ix2 n k) = ix2 n (0 : Fin 1) :=
    funext fun a => Fin.ext (by match a with | ⟨0, _⟩ => rfl | ⟨1, _⟩ => rfl)
  rw [el, er, val_main_v15_apply, val_main_v14_apply, es, aggregated_eq, Ideal.mulf_def]

end Cert.ReferenceIdeal.RefValue

end
-- ==== Proof.lean ====
/-
  The kernel against its reference: message passing, a scale, a matrix product.

  Both programs first build the aggregated rows: the rows of `x` gathered at the (wrapped) sources and added into `x`
  at the (wrapped) targets. The host operations that do this are the same in both programs, on the same arguments, so
  the aggregated rows `a` are one term and the gather and the scatter-add are never opened. The kernel then, tile by
  tile of 5000 rows, scales each row by its entry of `norm` and multiplies by `weight` on the matrix unit; the
  reference scales all rows and takes one matrix product. On the extended reals the change of format is the identity
  and a matrix product into zero is the plain sum, so entry `(n, j)` is

      kernel:     ∑ k, (a (n, k) · norm (n, 0)) · weight (k, j)
      reference:  ∑ k, (norm (n, 0) · a (n, k)) · weight (k, j)

  equal because multiplication of extended reals commutes; finiteness of the inputs is not used. The kernel's 40 row
  blocks tile the 200000 rows, so its result array is that function whole. The three frames are the generated frame
  runs (the reference's its generated run with the result dropped); nothing was rewritten in the idealization, so its
  preservation is trivial.
-/
import proofs.«173698_j13589276525053_1_alg».proof.Defs
import proofs.«173698_j13589276525053_1_alg».proof.Proof.Gen.Kernel
import proofs.«173698_j13589276525053_1_alg».proof.Proof.Gen.Kernel.Skeleton
import proofs.«173698_j13589276525053_1_alg».proof.Proof.Gen.Kernel.Launch
import proofs.«173698_j13589276525053_1_alg».proof.Proof.Gen.Kernel.Points
import proofs.«173698_j13589276525053_1_alg».proof.Proof.Gen.Kernel.Frame
import proofs.«173698_j13589276525053_1_alg».proof.Proof.Gen.KernelIdeal
import proofs.«173698_j13589276525053_1_alg».proof.Proof.Gen.KernelIdeal.Skeleton
import proofs.«173698_j13589276525053_1_alg».proof.Proof.Gen.KernelIdeal.Launch
import proofs.«173698_j13589276525053_1_alg».proof.Proof.Gen.KernelIdeal.Points
import proofs.«173698_j13589276525053_1_alg».proof.Proof.Gen.KernelIdeal.Frame
import proofs.«173698_j13589276525053_1_alg».proof.Proof.Gen.ReferenceIdeal
import proofs.«173698_j13589276525053_1_alg».proof.Proof.Gen.Pre_finite_inputs
import proofs.«173698_j13589276525053_1_alg».proof.Proof.Gen.KernelIdeal.Value
import proofs.«173698_j13589276525053_1_alg».proof.Proof.Gen.ReferenceIdeal.Run
import proofs.«173698_j13589276525053_1_alg».proof.Proof.Gen.ReferenceIdeal.Read
import proofs.«173698_j13589276525053_1_alg».proof.Proof.Blocks
import proofs.«173698_j13589276525053_1_alg».proof.Proof.RefProduct
import Idealize.ShloMosaic.Adequacy
import Idealize.ShloMosaic.Init

noncomputable section

namespace Cert.Proof

open Idealize.ShloMosaic Idealize.SL.Sem Cert.Kernel

/-- The word-level kernel runs and keeps its arguments: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the scaled product of the aggregated rows, `norm` and `weight` in their result
    arrays: the kernel's assembled from its 40 tiles, the reference's read off its one matrix product. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
